-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x64 .f32) (main_arg8 : FVec F S64 .f32) (main_arg9 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128x64 .f32) (main_arg8 : FVec F S64 .f32) (main_arg9 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S50000x64 : Shape := ⟨2, ![50000, 64]⟩

abbrev nBuf : Space → Nat
  | .hbm => 90
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S_, .f32⟩
  | .hbm, ⟨80, _⟩ => ⟨S128x128, .f32⟩
  | .hbm, ⟨81, _⟩ => ⟨S_, .i32⟩
  | .hbm, ⟨82, _⟩ => ⟨S_, .f32⟩
  | .hbm, ⟨83, _⟩ => ⟨S128x128, .f32⟩
  | .hbm, ⟨84, _⟩ => ⟨S_, .i32⟩
  | .hbm, ⟨85, _⟩ => ⟨S_, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_call0_v0 : Ref sig .tc := ⟨.hbm, 79, rfl⟩
abbrev main_v54 : Ref sig .tc := ⟨.hbm, 80, rfl⟩
abbrev main_c_13 : Ref sig .tc := ⟨.hbm, 81, rfl⟩
abbrev main_call1_v0 : Ref sig .tc := ⟨.hbm, 82, rfl⟩
abbrev main_v55 : Ref sig .tc := ⟨.hbm, 83, rfl⟩
abbrev main_c_14 : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  pads_S128x64_S128x128_000_0640 : S128x64.Pads (![0, 0] : Fin 2 → Nat) ![0, 64] ![0, 0] S128x128
  pads_S64_S128_0640 : S64.Pads (![0] : Fin 1 → Nat) ![64] ![0] S128
  shapeCasts_S128x128_S128x128 : S128x128.ShapeCasts S128x128
  slices_S50000x128_S50000x64_0_0 : S50000x128.Slices ![0, 0] S50000x64
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S_, .f32⟩
  | .hbm, ⟨87, _⟩ => ⟨S50000x128, .f32⟩
  | .hbm, ⟨88, _⟩ => ⟨S600000x1, .i32⟩
  | .hbm, ⟨89, _⟩ => ⟨S50000x128, .f32⟩
  | .hbm, ⟨90, _⟩ => ⟨S_, .f32⟩
  | .hbm, ⟨91, _⟩ => ⟨S600000, .f32⟩
  | .hbm, ⟨92, _⟩ => ⟨S_, .f32⟩
  | .hbm, ⟨93, _⟩ => ⟨S50000, .f32⟩
  | .hbm, ⟨94, _⟩ => ⟨S600000x1, .i32⟩
  | .hbm, ⟨95, _⟩ => ⟨S50000, .f32⟩
  | .hbm, ⟨96, _⟩ => ⟨S_, .f32⟩
  | .hbm, ⟨97, _⟩ => ⟨S50000, .f32⟩
  | .hbm, ⟨98, _⟩ => ⟨S50000, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | .hbm, ⟨106, _⟩ => ⟨S50000x64, .f32⟩
  | .hbm, ⟨107, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KHost.lean ====
import proofs.«158571_j85383949845212_1_alg».proof.Proof.Gen.KernelIdeal.Frame
import Idealize.ShloMosaic.Lib.StableHlo.Run

/-!
  The host operations of the program around its three kernel regions, read back as functions.

  The edge list gives a source and a destination per edge. A layer's neighbour aggregation gathers the source
  rows, adds them into the destination rows, and scales each row by the reciprocal of the node's in-degree
  (floored at one). Between the first two regions the host computes the per-column mean and (biased) variance of
  the first layer's output. Before the third region it pads the second layer's parameters from 64 to 128 columns
  with zeros, and after it keeps the first 64 columns of the result.
-/

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-! ## The functions -/

/-- Row `r` of the edge list as a vector of 600000 node numbers (row 0: sources, row 1: destinations). -/
def edgeSrc (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000
def edgeDst (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- The sources as gather indices: a negative number is wrapped by the node count; then the vector becomes a column. -/
def srcCol (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The destinations as scatter indices: the vector as a column. -/
def dstCol (dst : (⟨S600000, .i32⟩ : BufTy).Contents (Elt F)) : (⟨S600000x1, .i32⟩ : BufTy).Contents (Elt F) :=
  broadcastInDim S600000x1 ![0] bcast_S600000_S600000x1_0 dst

/-- Each node's in-degree (one added per incoming edge), floored at one. -/
def degFloor (dst : (⟨S600000, .i32⟩ : BufTy).Contents (Elt F)) : (⟨S50000, .f32⟩ : BufTy).Contents (Elt F) :=
  maximumf
    (Host.scatterAdd scatter_S50000_S600000x1_S600000_n_0_0_1 (broadcastInDim S50000 ![] bcast_S_S50000 (constant S_ .f32 0x00000000#32))
      (dstCol dst) (broadcastInDim S600000 ![] bcast_S_S600000 (constant S_ .f32 0x3F800000#32)))
    (broadcastInDim S50000 ![] bcast_S_S50000 (constant S_ .f32 0x3F800000#32))

/-- One over the floored in-degree. -/
def degInv (dst : (⟨S600000, .i32⟩ : BufTy).Contents (Elt F)) : (⟨S50000, .f32⟩ : BufTy).Contents (Elt F) :=
  Host.divf (broadcastInDim S50000 ![] bcast_S_S50000 (constant S_ .f32 0x3F800000#32)) (degFloor dst)

/-- For each node, the sum over its incoming edges of the source node's row of `h`. -/
def nbrSum (h : (⟨S50000x128, .f32⟩ : BufTy).Contents (Elt F)) (src dst : (⟨S600000, .i32⟩ : BufTy).Contents (Elt F)) :
    (⟨S50000x128, .f32⟩ : BufTy).Contents (Elt F) :=
  Host.scatterAdd scatter_S50000x128_S600000x1_S600000x128_1_0_0_1 (broadcastInDim S50000x128 ![] bcast_S_S50000x128 (constant S_ .f32 0x00000000#32))
    (dstCol dst) (Host.gather gather_S50000x128_S600000x1_S600000x128_1_0_n_n_0_1_1128 h (srcCol src))

/-- A per-node value spread along each node's row. -/
def alongRows (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The mean aggregation as this program computes it: the neighbour sum TIMES the reciprocal of the floored in-degree. -/
def aggMul (h : (⟨S50000x128, .f32⟩ : BufTy).Contents (Elt F)) (src : (⟨S600000, .i32⟩ : BufTy).Contents (Elt F))
    (dst : (⟨S600000, .i32⟩ : BufTy).Contents (Elt F)) (dinv : (⟨S50000, .f32⟩ : BufTy).Contents (Elt F)) :
    (⟨S50000x128, .f32⟩ : BufTy).Contents (Elt F) :=
  mulf (nbrSum h src dst) (alongRows dinv)

/-- The mean of each column, as a row: the column sums over the row count. -/
def colMean (h : (⟨S50000x128, .f32⟩ : BufTy).Contents (Elt F)) : (⟨S1x128, .f32⟩ : BufTy).Contents (Elt F) :=
  Host.divf (broadcastInDim S1x128 ![1] bcast_S128_S1x128_1 (Host.reduceAdd h (constant S_ .f32 0x00000000#32) reducesTo_S50000x128_S128_d0 h_S_))
    (broadcastInDim S1x128 ![] bcast_S_S1x128 (constant S_ .f32 0x47435000#32))

/-- A row spread down every row of the array. -/
def downRows (r : (⟨S1x128, .f32⟩ : BufTy).Contents (Elt F)) : (⟨S50000x128, .f32⟩ : BufTy).Contents (Elt F) :=
  broadcastInDim S50000x128 ![0, 1] bcast_S1x128_S50000x128_0_1 r

/-- The (biased) variance of each column, as a row: the column mean of the squared deviations from the column mean. -/
def colVar (h : (⟨S50000x128, .f32⟩ : BufTy).Contents (Elt F)) : (⟨S1x128, .f32⟩ : BufTy).Contents (Elt F) :=
  colMean (mulf (subf h (downRows (colMean h))) (subf h (downRows (colMean h))))

/-- A vector of 128 parameters as one row. -/
def asRow (v : (⟨S128, .f32⟩ : BufTy).Contents (Elt F)) : (⟨S1x128, .f32⟩ : BufTy).Contents (Elt F) :=
  shapeCast S1x128 v shapeCasts_S128_S1x128

/-- The padding value: the integer zero as a float. -/
def padZero : (⟨S_, .f32⟩ : BufTy).Contents (Elt F) := sitofp .f32 (constantI S_ 32 0#32)

/-- A 128×64 weight matrix padded with 64 more columns. -/
def padCols (w : (⟨S128x64, .f32⟩ : BufTy).Contents (Elt F)) : (⟨S128x128, .f32⟩ : BufTy).Contents (Elt F) :=
  pad S128x128 ![0, 0] ![0, 64] ![0, 0] w padZero pads_S128x64_S128x128_000_0640 h_S_

/-- A 64-vector padded with 64 more entries, as one row. -/
def padRow (b : (⟨S64, .f32⟩ : BufTy).Contents (Elt F)) : (⟨S1x128, .f32⟩ : BufTy).Contents (Elt F) :=
  asRow (pad S128 ![0] ![64] ![0] b padZero pads_S64_S128_0640 h_S_)

/-- The first 64 columns of a 50000×128 array. -/
def firstCols (y : (⟨S50000x128, .f32⟩ : BufTy).Contents (Elt F)) : (⟨S50000x64, .f32⟩ : BufTy).Contents (Elt F) :=
  extractStridedSlice S50000x64 ![0, 0] y slices_S50000x128_S50000x64_0_0

variable (m : (ℓ : Loc nD τ sig) → Buf (Elt F) ℓ) (ρ : Dev nD → PrngReg)

/-! ## Before the first region -/

set_option maxHeartbeats 4000000 in
theorem w1_src (c : Dev nD) : W1 m ρ c (Proc.devRef .tc main_v1) = edgeSrc (F := F) (m ((c.tc : Thread nD τ).loc main_arg1)) := by
  show StableHlo.after hostOps0 (W0 m ρ c) (Proc.devRef .tc main_v1) = _
  after_results_simp
  rfl

set_option maxHeartbeats 4000000 in
theorem w1_dst (c : Dev nD) : W1 m ρ c (Proc.devRef .tc main_v3) = edgeDst (F := F) (m ((c.tc : Thread nD τ).loc main_arg1)) := by
  show StableHlo.after hostOps0 (W0 m ρ c) (Proc.devRef .tc main_v3) = _
  after_results_simp
  rfl

set_option maxHeartbeats 4000000 in
theorem w1_dinv (c : Dev nD) : W1 m ρ c (Proc.devRef .tc main_v11) = degInv (F := F) (edgeDst (m ((c.tc : Thread nD τ).loc main_arg1))) := by
  show StableHlo.after hostOps0 (W0 m ρ c) (Proc.devRef .tc main_v11) = _
  after_results_simp
  rfl

set_option maxHeartbeats 4000000 in
/-- Region 0's first operand: the mean aggregation of the node features. -/
theorem w1_agg (c : Dev nD) : W1 m ρ c (Proc.devRef .tc main_v24)
    = aggMul (F := F) (m ((c.tc : Thread nD τ).loc main_arg0)) (edgeSrc (m ((c.tc : Thread nD τ).loc main_arg1)))
        (edgeDst (m ((c.tc : Thread nD τ).loc main_arg1))) (degInv (edgeDst (m ((c.tc : Thread nD τ).loc main_arg1)))) := by
  show StableHlo.after hostOps0 (W0 m ρ c) (Proc.devRef .tc main_v24) = _
  after_results_simp
  rfl

set_option maxHeartbeats 4000000 in
theorem w1_bias (c : Dev nD) : W1 m ρ c (Proc.devRef .tc main_v25) = asRow (F := F) (m ((c.tc : Thread nD τ).loc main_arg3)) := by
  show StableHlo.after hostOps0 (W0 m ρ c) (Proc.devRef .tc main_v25) = _
  after_results_simp
  rfl

set_option maxHeartbeats 4000000 in
/-- No operation before the first region writes an argument. -/
theorem w1_arg (c : Dev nD) (b : Ref sig .tc) (hb : b = main_arg0 ∨ b = main_arg2 ∨ b = main_arg4 ∨ b = main_arg5 ∨ b = main_arg6 ∨ b = main_arg7 ∨ b = main_arg8 ∨ b = main_arg9) :
    W1 m ρ c (Proc.devRef .tc b) = m ((c.tc : Thread nD τ).loc b) := by
  rcases hb with rfl | rfl | rfl | rfl | rfl | rfl | rfl | rfl <;>
  · show StableHlo.after hostOps0 (W0 m ρ c) _ = _
    after_results_simp

/-! ## Between the first and the second region -/

set_option maxHeartbeats 4000000 in
/-- Region 1's second operand: the column means of region 0's output. -/
theorem w3_mean (c : Dev nD) : W3 m ρ c (Proc.devRef .tc main_v30) = colMean (F := F) (W2 m ρ c (Proc.devRef .tc main_v26)) := by
  show StableHlo.after hostOps1 (W2 m ρ c) (Proc.devRef .tc main_v30) = _
  after_results_simp
  rfl

set_option maxHeartbeats 4000000 in
/-- Region 1's third operand: the column variances of region 0's output. -/
theorem w3_var (c : Dev nD) : W3 m ρ c (Proc.devRef .tc main_v37) = colVar (F := F) (W2 m ρ c (Proc.devRef .tc main_v26)) := by
  show StableHlo.after hostOps1 (W2 m ρ c) (Proc.devRef .tc main_v37) = _
  after_results_simp
  rfl

set_option maxHeartbeats 4000000 in
theorem w3_gamma (c : Dev nD) : W3 m ρ c (Proc.devRef .tc main_v38) = asRow (F := F) (W2 m ρ c (Proc.devRef .tc main_arg5)) := by
  show StableHlo.after hostOps1 (W2 m ρ c) (Proc.devRef .tc main_v38) = _
  after_results_simp
  rfl

set_option maxHeartbeats 4000000 in
theorem w3_beta (c : Dev nD) : W3 m ρ c (Proc.devRef .tc main_v39) = asRow (F := F) (W2 m ρ c (Proc.devRef .tc main_arg6)) := by
  show StableHlo.after hostOps1 (W2 m ρ c) (Proc.devRef .tc main_v39) = _
  after_results_simp
  rfl

set_option maxHeartbeats 4000000 in
/-- What this stretch does not write it keeps. -/
theorem w3_keep (c : Dev nD) (b : Ref sig .tc) (hb : b = main_v26 ∨ b = main_v1 ∨ b = main_v3 ∨ b = main_v11 ∨ b = main_arg7 ∨ b = main_arg8 ∨ b = main_arg9) :
    W3 m ρ c (Proc.devRef .tc b) = W2 m ρ c (Proc.devRef .tc b) := by
  rcases hb with rfl | rfl | rfl | rfl | rfl | rfl | rfl <;>
  · show StableHlo.after hostOps1 (W2 m ρ c) _ = _
    after_results_simp

/-! ## Between the second and the third region -/

set_option maxHeartbeats 4000000 in
/-- Region 2's first operand: the mean aggregation of region 1's output. -/
theorem w11_agg (c : Dev nD) : W11 m ρ c (Proc.devRef .tc main_v53)
    = aggMul (F := F) (W4 m ρ c (Proc.devRef .tc main_v40)) (W4 m ρ c (Proc.devRef .tc main_v1)) (W4 m ρ c (Proc.devRef .tc main_v3)) (W4 m ρ c (Proc.devRef .tc main_v11)) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v53) = _
  after_results_simp
  rfl

set_option maxHeartbeats 4000000 in
theorem w11_wl (c : Dev nD) : W11 m ρ c (Proc.devRef .tc main_v54) = padCols (F := F) (W4 m ρ c (Proc.devRef .tc main_arg7)) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v54) = _
  after_results_simp
  rfl

set_option maxHeartbeats 4000000 in
theorem w11_wr (c : Dev nD) : W11 m ρ c (Proc.devRef .tc main_v55) = padCols (F := F) (W4 m ρ c (Proc.devRef .tc main_arg9)) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v55) = _
  after_results_simp
  rfl

set_option maxHeartbeats 4000000 in
theorem w11_bias (c : Dev nD) : W11 m ρ c (Proc.devRef .tc main_v57) = padRow (F := F) (W4 m ρ c (Proc.devRef .tc main_arg8)) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v57) = _
  after_results_simp
  rfl

set_option maxHeartbeats 4000000 in
theorem w11_keep (c : Dev nD) : W11 m ρ c (Proc.devRef .tc main_v40) = W4 m ρ c (Proc.devRef .tc main_v40) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v40) = _
  after_results_simp

/-! ## After the third region -/

/-- The result: the first 64 columns of region 2's output. -/
theorem w13_out (c : Dev nD) : W13 m ρ c (Proc.devRef .tc main_v59) = firstCols (F := F) (W12 m ρ c (Proc.devRef .tc main_v58)) := by
  show StableHlo.after hostOps3 (W12 m ρ c) (Proc.devRef .tc main_v59) = _
  after_results_simp
  rfl

end Cert.KernelIdeal.HostSide

end
-- ==== Proof.Stage.lean ====
import proofs.«158571_j85383949845212_1_alg».proof.KernelIdeal
import Idealize.ShloMosaic.PureOps.Ideal
import Idealize.ShloMosaic.Lib.ValueIdx

/-!
  The two per-row stages the kernels compute, as functions of whole arrays, index by index, on the extended reals.
-/

noncomputable section

namespace Cert.KernelIdeal.Stage

open Cert.KernelIdeal Idealize.ShloMosaic Idealize.ShloMosaic.ValueIdx

/-- The linear stage of one layer: row `i` of the aggregated features through the left weights, plus row `i` of the
    root features through the right weights, plus the bias row. -/
def lin (a x : S50000x128.Idx → EReal) (wl : S128x128.Idx → EReal) (b : S1x128.Idx → EReal) (wr : S128x128.Idx → EReal) :
    S50000x128.Idx → EReal := fun i =>
  ((∑ k : Fin 128, a (ix2 (i 0) k) * wl (ix2 k (i 1))) + ∑ k : Fin 128, x (ix2 (i 0) k) * wr (ix2 k (i 1))) + b (ix2 (0 : Fin 1) (i 1))

/-- Normalise each column by its mean and variance (plus the small constant under the root), scale and shift it by
    the column's parameters, and clamp at zero. -/
def normRelu (h : S50000x128.Idx → EReal) (mu var g be : S1x128.Idx → EReal) : S50000x128.Idx → EReal := fun i =>
  max ((((h i - mu (ix2 (0 : Fin 1) (i 1))) * Ideal.rsqrt (var (ix2 (0 : Fin 1) (i 1)) + Ideal.ofBits .f32 0x3727C5AC#32))
      * g (ix2 (0 : Fin 1) (i 1))) + be (ix2 (0 : Fin 1) (i 1))) (Ideal.ofBits .f32 0x00000000#32)

/-- The origin of a rank-2 rectangle, as the constant-zero offset. -/
theorem origin2 : (![0, 0] : Fin 2 → Nat) = fun _ => 0 := funext fun a => by fin_cases a <;> rfl

end Cert.KernelIdeal.Stage

end
-- ==== Proof.Composite.lean ====
import proofs.«158571_j85383949845212_1_alg».proof.Proof.KHost
import proofs.«158571_j85383949845212_1_alg».proof.Proof.Stage

/-!
  The whole program's result as ONE function of its argument arrays, on the extended reals: the first layer's linear
  stage on the mean-aggregated features, its normalisation by its own column statistics with scale, shift and clamp,
  the second layer's linear stage on parameters padded to 128 columns, and the first 64 columns of that.
-/

noncomputable section

namespace Cert.KernelIdeal.Whole

open Cert.KernelIdeal Idealize.ShloMosaic
open Cert.KernelIdeal.HostSide Cert.KernelIdeal.Stage

/-- The first layer before normalisation: the linear stage of the mean-aggregated features and the features. -/
def layer1 (x : S50000x128.Idx → EReal) (ei : (⟨S2x600000, .i32⟩ : BufTy).Contents (Elt Ideal)) (wl : S128x128.Idx → EReal) (bl : S128.Idx → EReal)
    (wr : S128x128.Idx → EReal) : S50000x128.Idx → EReal :=
  lin (aggMul (F := Ideal) x (edgeSrc ei) (edgeDst ei) (degInv (edgeDst ei))) x wl (asRow (F := Ideal) bl) wr

/-- The first layer after normalisation by its own column statistics, scale, shift and clamp. -/
def hidden (x : S50000x128.Idx → EReal) (ei : (⟨S2x600000, .i32⟩ : BufTy).Contents (Elt Ideal)) (wl : S128x128.Idx → EReal) (bl : S128.Idx → EReal)
    (wr : S128x128.Idx → EReal) (g be : S128.Idx → EReal) : S50000x128.Idx → EReal :=
  normRelu (layer1 x ei wl bl wr) (colMean (F := Ideal) (layer1 x ei wl bl wr)) (colVar (F := Ideal) (layer1 x ei wl bl wr))
    (asRow (F := Ideal) g) (asRow (F := Ideal) be)

/-- The second layer on parameters padded to 128 columns: all 128 columns of it. -/
def layer2 (h : S50000x128.Idx → EReal) (ei : (⟨S2x600000, .i32⟩ : BufTy).Contents (Elt Ideal)) (wl : S128x64.Idx → EReal) (bl : S64.Idx → EReal)
    (wr : S128x64.Idx → EReal) : S50000x128.Idx → EReal :=
  lin (aggMul (F := Ideal) h (edgeSrc ei) (edgeDst ei) (degInv (edgeDst ei))) h (padCols (F := Ideal) wl) (padRow (F := Ideal) bl) (padCols (F := Ideal) wr)

/-- The program's result: the first 64 columns of the second layer of the hidden features. -/
def result (x : S50000x128.Idx → EReal) (ei : (⟨S2x600000, .i32⟩ : BufTy).Contents (Elt Ideal)) (wl1 : S128x128.Idx → EReal) (bl1 : S128.Idx → EReal)
    (wr1 : S128x128.Idx → EReal) (g be : S128.Idx → EReal) (wl2 : S128x64.Idx → EReal) (bl2 : S64.Idx → EReal) (wr2 : S128x64.Idx → EReal) :
    S50000x64.Idx → EReal :=
  firstCols (F := Ideal) (layer2 (hidden x ei wl1 bl1 wr1 g be) ei wl2 bl2 wr2)

end Cert.KernelIdeal.Whole

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Region0.lean ====
import proofs.«158571_j85383949845212_1_alg».proof.Proof.Gen.KernelIdeal.Frame
import proofs.«158571_j85383949845212_1_alg».proof.Proof.LibRowOps
import proofs.«158571_j85383949845212_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

/-!
  The first kernel region (the first layer's linear stage): what the region leaves in its output array, as one function
  of the arrays the region finds. Each grid point computes 5000 rows; the ten points' blocks tile the 50000 rows.
-/

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.KernelIdeal.Stage

/-- The body's arithmetic on one block, read at row `p`, lane `q`. -/
theorem pay_apply (a x : Vec Ideal S5000x128 .f32) (wl wr : Vec Ideal S128x128 .f32) (b : Vec Ideal S1x128 .f32) (p : Fin 5000) (q : Fin 128) :
    k0_pay1 (F := Ideal) a x wl wr b (ix2 p q)
      = ((∑ k : Fin 128, a (ix2 p k) * wl (ix2 k q)) + ∑ k : Fin 128, x (ix2 p k) * wr (ix2 k q)) + b (ix2 (0 : Fin 1) q) := by
  unfold k0_pay1
  refine congrArg₂ (· + ·) (congrArg₂ (· + ·) ?_ ?_) ?_
  · refine (Cert.RowOps.matmul_apply _ none _ _ p q).trans ?_
    rw [shapeCast_self]
    rfl
  · refine (Cert.RowOps.matmul_apply _ none _ _ p q).trans ?_
    rfl
  · refine (Cert.RowOps.rowParam_spread_apply b _ _ p q)

variable (V : (c : Dev nD) → (b : Ref sig .tc) → Buf (Elt Ideal) ((c : Thread nD τ).loc b))

/-- The printed index maps over the grid: the two row-blocked inputs move with the output, the three parameters stay at block 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the whole-array function of the arrays as the region finds them. -/
theorem flushed_eq (c : Dev nD) (t : Fin cfg0.N) :
    (dat0 V c).flushed 5 t = ((cfg0.win 5).blk t).view.read (Elt Ideal)
      (lin (V c main_v24) (V c main_arg0) (V c main_arg2) (V c main_v25) (V c main_arg4)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S1x128) origin2]
  funext j
  obtain ⟨p, q, rfl⟩ : ∃ (p : Fin 5000) (q : Fin 128), j = ix2 p q := ⟨j 0, j 1, eq_ix2 j⟩
  obtain ⟨f00, f01, f10, f11, f20, f21, f30, f31, f40, f41, f50, f51⟩ := idx_facts t
  show k0_pay1 (F := Ideal) (iblk0 V c 0 t) (iblk0 V c 1 t) (iblk0 V c 2 t) (iblk0 V c 4 t) (iblk0 V c 3 t) (ix2 p q)
    = lin (V c main_v24) (V c main_arg0) (V c main_arg2) (V c main_v25) (V c main_arg4) (((cfg0.win 5).blk t).view.emb (ix2 p q))
  refine (pay_apply _ _ _ _ _ p q).trans ?_
  have e0 : ∀ k : Fin 128, iblk0 V c 0 t (ix2 p k) = V c main_v24 (ix2 ((((cfg0.win 5).blk t).view.emb (ix2 p q)) 0) k) := fun k => by
    show V c main_v24 (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have e1 : ∀ k : Fin 128, iblk0 V c 1 t (ix2 p k) = V c main_arg0 (ix2 ((((cfg0.win 5).blk t).view.emb (ix2 p q)) 0) k) := fun k => by
    show V c main_arg0 (((cfg0.win 1).blk t).view.emb (ix2 p k)) = _
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  have e2 : ∀ k : Fin 128, iblk0 V c 2 t (ix2 k q) = V c main_arg2 (ix2 k ((((cfg0.win 5).blk t).view.emb (ix2 p q)) 1)) := fun k => by
    show V c main_arg2 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have e4 : ∀ k : Fin 128, iblk0 V c 4 t (ix2 k q) = V c main_arg4 (ix2 k ((((cfg0.win 5).blk t).view.emb (ix2 p q)) 1)) := fun k => by
    show V c main_arg4 (((cfg0.win 4).blk t).view.emb (ix2 k q)) = _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  have e3 : iblk0 V c 3 t (ix2 (0 : Fin 1) q) = V c main_v25 (ix2 (0 : Fin 1) ((((cfg0.win 5).blk t).view.emb (ix2 p q)) 1)) := by
    show V c main_v25 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega
  simp only [e0, e1, e2, e3, e4]
  rfl

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The ten blocks of 5000 rows cover the array: row `r` lies in the block of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by rw [show cfg0.N = 10 from N_0]; omega⟩, flush0_5 _, ?_⟩
  rw [mem_blk]
  obtain ⟨-, -, -, -, -, -, -, -, -, -, f50, f51⟩ := idx_facts ⟨(i 0).val / 5000, by rw [show cfg0.N = 10 from N_0]; omega⟩
  intro a
  match a with
  | ⟨0, _⟩ => show win0_5.index _ (0 : Fin 2) * 5000 ≤ (i 0).val ∧ (i 0).val < win0_5.index _ (0 : Fin 2) * 5000 + 5000; rw [f50]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [f51]; omega

/-- The region's output array after the region: the linear stage of the arrays as the region finds them. -/
theorem out_eq (c : Dev nD) : (dat0 V c).arrAt 5 cfg0.N
    = lin (V c main_v24) (V c main_arg0) (V c main_arg2) (V c main_v25) (V c main_arg4) :=
  (dat0 V c).arrAt_eq_of_cover 5 _ (fun t _ => flushed_eq V c t) cover

end Cert.KernelIdeal.Region0

end
-- ==== Proof.Region1.lean ====
import proofs.«158571_j85383949845212_1_alg».proof.Proof.Gen.KernelIdeal.Frame
import proofs.«158571_j85383949845212_1_alg».proof.Proof.LibRowOps
import proofs.«158571_j85383949845212_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

/-!
  The second kernel region (normalise, scale, shift, clamp at zero): what the region leaves in its output array, as one
  function of the arrays the region finds. Each grid point treats 5000 rows; the four one-row parameters are the same
  block at every point; the ten points' blocks tile the 50000 rows.
-/

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.KernelIdeal.Stage

/-- The body's arithmetic on one block, read at row `p`, lane `q`: each one-row parameter is spread down the rows, the
    reciprocal root is taken of the one row before it is spread. -/
theorem pay_apply (h : Vec Ideal S5000x128 .f32) (mu var g be : Vec Ideal S1x128 .f32) (p : Fin 5000) (q : Fin 128) :
    k1_pay1 (F := Ideal) h mu var g be (ix2 p q)
      = max ((((h (ix2 p q) - mu (ix2 (0 : Fin 1) q)) * Ideal.rsqrt (var (ix2 (0 : Fin 1) q) + Ideal.ofBits .f32 0x3727C5AC#32))
          * g (ix2 (0 : Fin 1) q)) + be (ix2 (0 : Fin 1) q)) (Ideal.ofBits .f32 0x00000000#32) := by
  unfold k1_pay1
  refine congrArg₂ max (congrArg₂ (· + ·) (congrArg₂ (· * ·) (congrArg₂ (· * ·) (congrArg₂ (· - ·) ?_ ?_) ?_) ?_) ?_) ?_
  · rw [shapeCast_self]
  · exact Cert.RowOps.rowParam_spread_apply mu _ _ p q
  · refine (broadcastTo_1b_ab_apply _ _ p q).trans ?_
    show Ideal.rsqrt (shapeCast S1x128 var shapeCasts_S1x128_S1x128 (ix2 (0 : Fin 1) q) + Ideal.ofBits .f32 0x3727C5AC#32) = _
    rw [shapeCast_self]
  · exact Cert.RowOps.rowParam_spread_apply g _ _ p q
  · exact Cert.RowOps.rowParam_spread_apply be _ _ p q
  · rfl

variable (V : (c : Dev nD) → (b : Ref sig .tc) → Buf (Elt Ideal) ((c : Thread nD τ).loc b))

/-- The printed index maps over the grid: the row-blocked input moves with the output, the four parameters stay at block 0. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array function of the arrays as the region finds them. -/
theorem flushed_eq (c : Dev nD) (t : Fin cfg1.N) :
    (dat1 V c).flushed 5 t = ((cfg1.win 5).blk t).view.read (Elt Ideal)
      (normRelu (V c main_v26) (V c main_v30) (V c main_v37) (V c main_v38) (V c main_v39)) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  obtain ⟨f00, f01, f10, f11, f20, f21, f30, f31, f40, f41, f50, f51⟩ := idx_facts t
  show k1_pay1 (F := Ideal) (iblk1 V c 0 t) (iblk1 V c 1 t) (iblk1 V c 2 t) (iblk1 V c 3 t) (iblk1 V c 4 t) (ix2 p q)
    = normRelu (V c main_v26) (V c main_v30) (V c main_v37) (V c main_v38) (V c main_v39) (((cfg1.win 5).blk t).view.emb (ix2 p q))
  refine (pay_apply _ _ _ _ _ p q).trans ?_
  have e0 : iblk1 V c 0 t (ix2 p q) = V c main_v26 (((cfg1.win 5).blk t).view.emb (ix2 p q)) := by
    show V c main_v26 (((cfg1.win 0).blk t).view.emb (ix2 p q)) = _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have e1 : iblk1 V c 1 t (ix2 (0 : Fin 1) q) = V c main_v30 (ix2 (0 : Fin 1) ((((cfg1.win 5).blk t).view.emb (ix2 p q)) 1)) := by
    show V c main_v30 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_5.index t (1 : Fin 2) * 128 + 1 * q.val; omega
  have e2 : iblk1 V c 2 t (ix2 (0 : Fin 1) q) = V c main_v37 (ix2 (0 : Fin 1) ((((cfg1.win 5).blk t).view.emb (ix2 p q)) 1)) := by
    show V c main_v37 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_5.index t (1 : Fin 2) * 128 + 1 * q.val; omega
  have e3 : iblk1 V c 3 t (ix2 (0 : Fin 1) q) = V c main_v38 (ix2 (0 : Fin 1) ((((cfg1.win 5).blk t).view.emb (ix2 p q)) 1)) := by
    show V c main_v38 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have e4 : iblk1 V c 4 t (ix2 (0 : Fin 1) q) = V c main_v39 (ix2 (0 : Fin 1) ((((cfg1.win 5).blk t).view.emb (ix2 p q)) 1)) := by
    show V c main_v39 (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  rw [e0, e1, e2, e3, e4]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The ten blocks of 5000 rows cover the array: row `r` lies in the block of point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by rw [show cfg1.N = 10 from N_1]; omega⟩, flush1_5 _, ?_⟩
  rw [mem_blk]
  obtain ⟨-, -, -, -, -, -, -, -, -, -, f50, f51⟩ := idx_facts ⟨(i 0).val / 5000, by rw [show cfg1.N = 10 from N_1]; omega⟩
  intro a
  match a with
  | ⟨0, _⟩ => show win1_5.index _ (0 : Fin 2) * 5000 ≤ (i 0).val ∧ (i 0).val < win1_5.index _ (0 : Fin 2) * 5000 + 5000; rw [f50]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [f51]; omega

/-- The region's output array after the region: the normalised, clamped function of the arrays as the region finds them. -/
theorem out_eq (c : Dev nD) : (dat1 V c).arrAt 5 cfg1.N
    = normRelu (V c main_v26) (V c main_v30) (V c main_v37) (V c main_v38) (V c main_v39) :=
  (dat1 V c).arrAt_eq_of_cover 5 _ (fun t _ => flushed_eq V c t) cover

end Cert.KernelIdeal.Region1

end
-- ==== Proof.Region2.lean ====
import proofs.«158571_j85383949845212_1_alg».proof.Proof.Gen.KernelIdeal.Frame
import proofs.«158571_j85383949845212_1_alg».proof.Proof.LibRowOps
import proofs.«158571_j85383949845212_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

/-!
  The third kernel region (the second layer's linear stage, on parameters padded to 128 columns): what the region leaves
  in its output array, as one function of the arrays the region finds. The body is the first region's; so is the tiling:
  each grid point computes 5000 rows, and the ten points' blocks tile the 50000 rows.
-/

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.KernelIdeal.Stage

/-- The body's arithmetic on one block, read at row `p`, lane `q` (every operand first passes a cast to its own shape). -/
theorem pay_apply (a x : Vec Ideal S5000x128 .f32) (wl wr : Vec Ideal S128x128 .f32) (b : Vec Ideal S1x128 .f32) (p : Fin 5000) (q : Fin 128) :
    k2_pay1 (F := Ideal) a x wl wr b (ix2 p q)
      = ((∑ k : Fin 128, a (ix2 p k) * wl (ix2 k q)) + ∑ k : Fin 128, x (ix2 p k) * wr (ix2 k q)) + b (ix2 (0 : Fin 1) q) := by
  unfold k2_pay1
  refine congrArg₂ (· + ·) (congrArg₂ (· + ·) ?_ ?_) ?_
  · refine (Cert.RowOps.matmul_apply _ none _ _ p q).trans ?_
    rw [shapeCast_self, shapeCast_self]
    rfl
  · refine (Cert.RowOps.matmul_apply _ none _ _ p q).trans ?_
    rw [shapeCast_self, shapeCast_self]
    rfl
  · refine (Cert.RowOps.rowParam_spread_apply b _ _ p q)

variable (V : (c : Dev nD) → (b : Ref sig .tc) → Buf (Elt Ideal) ((c : Thread nD τ).loc b))

/-- The printed index maps over the grid: the two row-blocked inputs move with the output, the three parameters stay at block 0. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the whole-array function of the arrays as the region finds them. -/
theorem flushed_eq (c : Dev nD) (t : Fin cfg2.N) :
    (dat2 V c).flushed 5 t = ((cfg2.win 5).blk t).view.read (Elt Ideal)
      (lin (V c main_v53) (V c main_v40) (V c main_v54) (V c main_v57) (V c main_v55)) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x128) origin2, View.ld_unit_zero (S := S1x128) origin2]
  funext j
  obtain ⟨p, q, rfl⟩ : ∃ (p : Fin 5000) (q : Fin 128), j = ix2 p q := ⟨j 0, j 1, eq_ix2 j⟩
  obtain ⟨f00, f01, f10, f11, f20, f21, f30, f31, f40, f41, f50, f51⟩ := idx_facts t
  show k2_pay1 (F := Ideal) (iblk2 V c 0 t) (iblk2 V c 1 t) (iblk2 V c 2 t) (iblk2 V c 4 t) (iblk2 V c 3 t) (ix2 p q)
    = lin (V c main_v53) (V c main_v40) (V c main_v54) (V c main_v57) (V c main_v55) (((cfg2.win 5).blk t).view.emb (ix2 p q))
  refine (pay_apply _ _ _ _ _ p q).trans ?_
  have e0 : ∀ k : Fin 128, iblk2 V c 0 t (ix2 p k) = V c main_v53 (ix2 ((((cfg2.win 5).blk t).view.emb (ix2 p q)) 0) k) := fun k => by
    show V c main_v53 (((cfg2.win 0).blk t).view.emb (ix2 p k)) = _
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have e1 : ∀ k : Fin 128, iblk2 V c 1 t (ix2 p k) = V c main_v40 (ix2 ((((cfg2.win 5).blk t).view.emb (ix2 p q)) 0) k) := fun k => by
    show V c main_v40 (((cfg2.win 1).blk t).view.emb (ix2 p k)) = _
    refine congrArg _ (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have e2 : ∀ k : Fin 128, iblk2 V c 2 t (ix2 k q) = V c main_v54 (ix2 k ((((cfg2.win 5).blk t).view.emb (ix2 p q)) 1)) := fun k => by
    show V c main_v54 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have e4 : ∀ k : Fin 128, iblk2 V c 4 t (ix2 k q) = V c main_v55 (ix2 k ((((cfg2.win 5).blk t).view.emb (ix2 p q)) 1)) := fun k => by
    show V c main_v55 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  have e3 : iblk2 V c 3 t (ix2 (0 : Fin 1) q) = V c main_v57 (ix2 (0 : Fin 1) ((((cfg2.win 5).blk t).view.emb (ix2 p q)) 1)) := by
    show V c main_v57 (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  simp only [e0, e1, e2, e3, e4]
  rfl

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v58).slice (win2_5.rect t)).set ↔ _
  rw [View.set_slice_whole, Rect.mem_set_unit]
  exact Iff.rfl

/-- The ten blocks of 5000 rows cover the array: row `r` lies in the block of point `r / 5000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, by rw [show cfg2.N = 10 from N_2]; omega⟩, flush2_5 _, ?_⟩
  rw [mem_blk]
  obtain ⟨-, -, -, -, -, -, -, -, -, -, f50, f51⟩ := idx_facts ⟨(i 0).val / 5000, by rw [show cfg2.N = 10 from N_2]; omega⟩
  intro a
  match a with
  | ⟨0, _⟩ => show win2_5.index _ (0 : Fin 2) * 5000 ≤ (i 0).val ∧ (i 0).val < win2_5.index _ (0 : Fin 2) * 5000 + 5000; rw [f50]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [f51]; omega

/-- The region's output array after the region: the linear stage of the arrays as the region finds them. -/
theorem out_eq (c : Dev nD) : (dat2 V c).arrAt 5 cfg2.N
    = lin (V c main_v53) (V c main_v40) (V c main_v54) (V c main_v57) (V c main_v55) :=
  (dat2 V c).arrAt_eq_of_cover 5 _ (fun t _ => flushed_eq V c t) cover

end Cert.KernelIdeal.Region2

end
-- ==== Proof.KValue.lean ====
import proofs.«158571_j85383949845212_1_alg».proof.Proof.KRun
import proofs.«158571_j85383949845212_1_alg».proof.Proof.KHost
import proofs.«158571_j85383949845212_1_alg».proof.Proof.Composite
import proofs.«158571_j85383949845212_1_alg».proof.Proof.Region0
import proofs.«158571_j85383949845212_1_alg».proof.Proof.Region1
import proofs.«158571_j85383949845212_1_alg».proof.Proof.Region2

/-!
  The run of the whole program ends with its result buffer at the composite function of the argument arrays: host
  stretch, region, host stretch, region, host stretches, region, host stretch, each read where it stands in the fold of
  buffer contents from the launch memory.
-/

set_option maxRecDepth 16384

noncomputable section

namespace Cert.KernelIdeal.Whole

open Cert.KernelIdeal Cert.KernelIdeal.Gen Idealize.ShloMosaic Idealize.ShloMosaic.TcCoe Idealize.SL.Sem
open Cert.KernelIdeal.HostSide Cert.KernelIdeal.Stage

variable (m : (ℓ : Loc nD τ sig) → Buf (Elt Ideal) ℓ) (ρ : Dev nD → PrngReg)

/-- After the first region its output array holds the first layer before normalisation. -/
theorem w2_layer1 (c : Dev nD) : W2 m ρ c (Proc.devRef .tc main_v26)
    = layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W2_arr m ρ c 5).trans (Region0.out_eq (V1 m ρ) c)).trans ?_
  show lin (W1 m ρ c (Proc.devRef .tc main_v24)) (W1 m ρ c (Proc.devRef .tc main_arg0)) (W1 m ρ c (Proc.devRef .tc main_arg2))
    (W1 m ρ c (Proc.devRef .tc main_v25)) (W1 m ρ c (Proc.devRef .tc main_arg4)) = _
  rw [w1_agg, w1_bias, w1_arg m ρ c main_arg0 (.inl rfl), w1_arg m ρ c main_arg2 (.inr (.inl rfl)), w1_arg m ρ c main_arg4 (.inr (.inr (.inl rfl)))]
  rfl

/-- A buffer the first region and the stretch before it leave alone still holds an argument. -/
theorem w2_arg (c : Dev nD) (b : Ref sig .tc) (hb : b = main_arg5 ∨ b = main_arg6 ∨ b = main_arg7 ∨ b = main_arg8 ∨ b = main_arg9) :
    W2 m ρ c (Proc.devRef .tc b) = m ((c.tc : Thread nD τ).loc b) := by
  rcases hb with rfl | rfl | rfl | rfl | rfl
  · exact (W2_of_ne m ρ c main_arg5 (by decide)).trans (w1_arg m ρ c main_arg5 (by simp))
  · exact (W2_of_ne m ρ c main_arg6 (by decide)).trans (w1_arg m ρ c main_arg6 (by simp))
  · exact (W2_of_ne m ρ c main_arg7 (by decide)).trans (w1_arg m ρ c main_arg7 (by simp))
  · exact (W2_of_ne m ρ c main_arg8 (by decide)).trans (w1_arg m ρ c main_arg8 (by simp))
  · exact (W2_of_ne m ρ c main_arg9 (by decide)).trans (w1_arg m ρ c main_arg9 (by simp))

/-- After the second region its output array holds the hidden features. -/
theorem w4_hidden (c : Dev nD) : W4 m ρ c (Proc.devRef .tc main_v40)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine ((W4_arr m ρ c 5).trans (Region1.out_eq (V3 m ρ) c)).trans ?_
  show normRelu (W3 m ρ c (Proc.devRef .tc main_v26)) (W3 m ρ c (Proc.devRef .tc main_v30)) (W3 m ρ c (Proc.devRef .tc main_v37))
    (W3 m ρ c (Proc.devRef .tc main_v38)) (W3 m ρ c (Proc.devRef .tc main_v39)) = _
  rw [w3_keep m ρ c main_v26 (.inl rfl), w3_mean, w3_var, w3_gamma, w3_beta, w2_layer1,
    w2_arg m ρ c main_arg5 (.inl rfl), w2_arg m ρ c main_arg6 (.inr (.inl rfl))]
  rfl

/-- What the second layer's aggregation reads of the first stretch's results is still there after two regions. -/
theorem w4_src (c : Dev nD) : W4 m ρ c (Proc.devRef .tc main_v1) = edgeSrc (F := Ideal) (m ((c.tc : Thread nD τ).loc main_arg1)) :=
  (W4_of_ne m ρ c main_v1 (by decide)).trans ((w3_keep m ρ c main_v1 (by simp)).trans ((W2_of_ne m ρ c main_v1 (by decide)).trans (w1_src m ρ c)))
theorem w4_dst (c : Dev nD) : W4 m ρ c (Proc.devRef .tc main_v3) = edgeDst (F := Ideal) (m ((c.tc : Thread nD τ).loc main_arg1)) :=
  (W4_of_ne m ρ c main_v3 (by decide)).trans ((w3_keep m ρ c main_v3 (by simp)).trans ((W2_of_ne m ρ c main_v3 (by decide)).trans (w1_dst m ρ c)))
theorem w4_dinv (c : Dev nD) : W4 m ρ c (Proc.devRef .tc main_v11) = degInv (F := Ideal) (edgeDst (m ((c.tc : Thread nD τ).loc main_arg1))) :=
  (W4_of_ne m ρ c main_v11 (by decide)).trans ((w3_keep m ρ c main_v11 (by simp)).trans ((W2_of_ne m ρ c main_v11 (by decide)).trans (w1_dinv m ρ c)))
theorem w4_arg (c : Dev nD) (b : Ref sig .tc) (hb : b = main_arg7 ∨ b = main_arg8 ∨ b = main_arg9) :
    W4 m ρ c (Proc.devRef .tc b) = m ((c.tc : Thread nD τ).loc b) := by
  rcases hb with rfl | rfl | rfl
  · exact (W4_of_ne m ρ c main_arg7 (by decide)).trans ((w3_keep m ρ c main_arg7 (by simp)).trans (w2_arg m ρ c main_arg7 (by simp)))
  · exact (W4_of_ne m ρ c main_arg8 (by decide)).trans ((w3_keep m ρ c main_arg8 (by simp)).trans (w2_arg m ρ c main_arg8 (by simp)))
  · exact (W4_of_ne m ρ c main_arg9 (by decide)).trans ((w3_keep m ρ c main_arg9 (by simp)).trans (w2_arg m ρ c main_arg9 (by simp)))

/-- After the third region its output array holds all 128 columns of the second layer. -/
theorem w12_layer2 (c : Dev nD) : W12 m ρ c (Proc.devRef .tc main_v58)
    = layer2 (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9)) := by
  refine ((W12_arr m ρ c 5).trans (Region2.out_eq (V11 m ρ) c)).trans ?_
  show lin (W11 m ρ c (Proc.devRef .tc main_v53)) (W11 m ρ c (Proc.devRef .tc main_v40)) (W11 m ρ c (Proc.devRef .tc main_v54))
    (W11 m ρ c (Proc.devRef .tc main_v57)) (W11 m ρ c (Proc.devRef .tc main_v55)) = _
  rw [w11_agg, w11_keep, w11_wl, w11_bias, w11_wr, w4_hidden, w4_src, w4_dst, w4_dinv,
    w4_arg m ρ c main_arg7 (.inl rfl), w4_arg m ρ c main_arg8 (.inr (.inl rfl)), w4_arg m ρ c main_arg9 (.inr (.inr rfl))]
  rfl

/-- The result buffer after the last stretch. -/
theorem w13_result (c : Dev nD) : W13 m ρ c (Proc.devRef .tc main_v59)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [w13_out, w12_layer2]
  rfl

/-- Every weakly fair execution of the program terminates without a fault, with the result at `result` of the argument
    arrays as launched and every argument array unchanged. -/
theorem run : θ_run defs (onTc (τ := τ) (main (F := Ideal))) ⟨m, fun _ => 0, ρ⟩ (fun r => ∀ c : Dev nD,
      r.2.mem ((c.tc : Thread nD τ).loc main_v59) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w13_result m ρ c), (h c).2⟩) (run_out m ρ)

end Cert.KernelIdeal.Whole

end
-- ==== Proof.Bridge.lean ====
import proofs.«158571_j85383949845212_1_alg».proof.Proof.Composite
import proofs.«158571_j85383949845212_1_alg».proof.Proof.Gen.ReferenceIdeal.Read
import Idealize.ShloMosaic.Lib.ValueIdx
import Idealize.ShloMosaic.Lib.ValueLayout
import Idealize.ShloMosaic.Lib.KernelVsHost
import Idealize.ShloMosaic.PureOps.Ideal.Laws

/-!
  The program's result function is the reference's, on the extended reals, stage by stage.

  Where the two programs apply the same host operations (the gather and scatter-add of the aggregation, the in-degree,
  the column statistics) the two terms are one term. They differ in three places:

  * the mean aggregation: the program multiplies the neighbour sum by `1 / d`, the reference divides it by `d`, with
    `d` the in-degree floored at one; `d ≥ 1`, so `d` is not zero and both are the sum times the inverse of `d`, on
    every extended real;
  * the linear stage: the program adds the two matrix products and then the bias, the reference adds the bias between
    them; addition of extended reals is commutative and associative;
  * the second layer: the program pads the parameters with 64 zero columns and keeps the first 64 columns of the
    result; a kept column reads only the unpadded part of each parameter.
-/

set_option maxRecDepth 16384

noncomputable section

namespace Cert.Bridge

open Idealize.ShloMosaic Idealize.ShloMosaic.ValueIdx
open Cert.KernelIdeal (S50000x128 S2x600000 S128x128 S128 S128x64 S64 S600000 S50000 S1x128 S50000x64 S50000x1 S_)
open Cert.KernelIdeal.HostSide Cert.KernelIdeal.Stage Cert.KernelIdeal.Whole
open Cert.ReferenceIdeal.Read

/-! ## The mean aggregation -/

/-- The word of the float one denotes the real one. -/
theorem one_f32 : Ideal.ofBits .f32 0x3F800000#32 = 1 := by
  simp [Ideal.ofBits, Ideal.ieee]
  first
    | (rw [← EReal.coe_mul, ← EReal.coe_one]; exact congrArg _ (by norm_num))
    | (norm_cast; norm_num)

/-- The float one spread over the nodes reads one at every node. -/
theorem ones_apply (hb : S_.BroadcastsInDim S50000 (![] : Fin 0 → Fin S50000.rank)) (j : S50000.Idx) :
    broadcastInDim S50000 ![] hb (constant (F := Ideal) S_ .f32 0x3F800000#32) j = 1 :=
  (broadcastInDim_apply _ hb _ j ix0 (fun a => a.elim0)).trans one_f32

/-- A per-node value spread along the rows reads, at `(r, c)`, the value of node `r`. -/
theorem alongRows_apply (v : (⟨S50000, .f32⟩ : BufTy).Contents (Elt Ideal)) (i : S50000x128.Idx) :
    alongRows (F := Ideal) v i = v (ix1 (i 0)) := by
  unfold alongRows
  refine (broadcastInDim_apply _ _ _ i (ix2 (n0 := 50000) (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ _ v (ix2 (n0 := 50000) (i 0) (0 : Fin 1)) (ix1 (i 0)) (fun a => match a with
    | ⟨0, _⟩ => by show (i 0).val = if (50000 : Nat) = 1 then 0 else (i 0).val; rw [if_neg (by decide)])

/-- The floored in-degree is at least one, so it is not zero. -/
theorem degFloor_ne_zero (dst : (⟨S600000, .i32⟩ : BufTy).Contents (Elt Ideal)) (j : S50000.Idx) : degFloor (F := Ideal) dst j ≠ 0 := by
  unfold degFloor
  rw [maximumf_apply, ones_apply]
  exact (lt_of_lt_of_le zero_lt_one (le_max_right _ _)).ne'

/-- The host's quotient of two arrays, read at an index. -/
theorem hostDivf_apply {s : Shape} {φ : FTy} (a b : FVec Ideal s φ) (j : s.Idx) : Host.divf a b j = Ideal.div (a j) (b j) := rfl

/-- One over the floored in-degree, at a node. -/
theorem degInv_apply (dst : (⟨S600000, .i32⟩ : BufTy).Contents (Elt Ideal)) (j : S50000.Idx) :
    degInv (F := Ideal) dst j = Ideal.div 1 (degFloor (F := Ideal) dst j) := by
  unfold degInv
  rw [hostDivf_apply, ones_apply]

/-- On the extended reals, a value times the quotient of one by a nonzero divisor is the value's quotient by it:
    both are the value times the divisor's inverse. -/
theorem mul_one_div (s d : EReal) (hd : d ≠ 0) : s * Ideal.div 1 d = Ideal.div s d := by
  unfold Ideal.div
  rw [if_neg hd, if_neg hd, one_mul]

/-- The sum times the reciprocal of the floored in-degree is the sum divided by it. -/
theorem aggMul_eq (h : (⟨S50000x128, .f32⟩ : BufTy).Contents (Elt Ideal)) (src dst : (⟨S600000, .i32⟩ : BufTy).Contents (Elt Ideal)) :
    aggMul (F := Ideal) h src dst (degInv dst)
      = fun i => Ideal.div (nbrSum (F := Ideal) h src dst i) (alongRows (F := Ideal) (degFloor dst) i) := by
  funext i
  unfold aggMul
  rw [mulf_apply, alongRows_apply, alongRows_apply, degInv_apply]
  exact mul_one_div _ _ (degFloor_ne_zero dst _)

variable (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))

/-- The neighbour sum of the node features, the floored in-degree, and its spreading along the rows are the reference's. -/
theorem nbrSum_ref : nbrSum (F := Ideal) x0 (edgeSrc x1) (edgeDst x1) = val_main_v13 (F := Ideal) x0 x1 := rfl
theorem degFloor_ref : degFloor (F := Ideal) (edgeDst x1) = val_main_v19 (F := Ideal) x1 := rfl
theorem alongRows_ref : alongRows (F := Ideal) (val_main_v19 (F := Ideal) x1) = val_main_v21 (F := Ideal) x1 := rfl

/-- The first layer's aggregation is the reference's quotient. -/
theorem agg1_ref : aggMul (F := Ideal) x0 (edgeSrc x1) (edgeDst x1) (degInv (edgeDst x1)) = val_main_v22 (F := Ideal) x0 x1 := by
  rw [aggMul_eq, nbrSum_ref, degFloor_ref, alongRows_ref]
  funext i
  rw [val_main_v22_apply, Ideal.hostDivf_def]

/-! ## The first layer -/

/-- A vector of parameters as one row reads, at `(0, c)`, the vector's entry `c`. -/
theorem asRow_apply (v : (⟨S128, .f32⟩ : BufTy).Contents (Elt Ideal)) (c : Fin 128) : asRow (F := Ideal) v (ix2 (0 : Fin 1) c) = v (ix1 c) :=
  shapeCast_a_1a_apply v _ 0 c

/-- The linear stage of the aggregation and the features is the reference's: its bias is added between the two
    products instead of after them. -/
theorem lin_ref : lin (val_main_v22 (F := Ideal) x0 x1) x0 x2 (asRow (F := Ideal) x3) x4 = val_main_v28 (F := Ideal) x0 x1 x2 x3 x4 := by
  funext i
  obtain ⟨p, q, rfl⟩ : ∃ (p : Fin 50000) (q : Fin 128), i = ix2 p q := ⟨i 0, i 1, eq_ix2 i⟩
  rw [val_main_v28_apply, val_main_v26_apply, val_main_v23_apply, val_main_v27_apply, val_main_v25_apply, val_main_v24_apply]
  have el : ∀ k : Fin 128, lidx_main_v23 (ix2 p q) k = ix2 p k := fun k => funext fun a => Fin.ext (by match a with | ⟨0, _⟩ => rfl | ⟨1, _⟩ => rfl)
  have er : ∀ k : Fin 128, ridx_main_v23 (ix2 p q) k = ix2 k q := fun k => funext fun a => Fin.ext (by match a with | ⟨0, _⟩ => rfl | ⟨1, _⟩ => rfl)
  have el' : ∀ k : Fin 128, lidx_main_v27 (ix2 p q) k = ix2 p k := fun k => funext fun a => Fin.ext (by match a with | ⟨0, _⟩ => rfl | ⟨1, _⟩ => rfl)
  have er' : ∀ k : Fin 128, ridx_main_v27 (ix2 p q) k = ix2 k q := fun k => funext fun a => Fin.ext (by match a with | ⟨0, _⟩ => rfl | ⟨1, _⟩ => rfl)
  have eb : idx_main_v24 (idx_main_v25 (ix2 p q)) = ix1 q := funext fun a => Fin.ext (by match a with | ⟨0, _⟩ => rfl)
  simp only [el, er, el', er', eb]
  show ((∑ k : Fin 128, val_main_v22 (F := Ideal) x0 x1 (ix2 p k) * x2 (ix2 k q)) + ∑ k : Fin 128, x0 (ix2 p k) * x4 (ix2 k q))
      + asRow (F := Ideal) x3 (ix2 (0 : Fin 1) q)
    = ((∑ k : Fin 128, val_main_v22 (F := Ideal) x0 x1 (ix2 p k) * x2 (ix2 k q)) + x3 (ix1 q)) + ∑ k : Fin 128, x0 (ix2 p k) * x4 (ix2 k q)
  rw [asRow_apply]
  exact add_right_comm _ _ _

/-- The column means and variances of the first layer are the reference's. -/
theorem colMean_ref : colMean (F := Ideal) (val_main_v28 (F := Ideal) x0 x1 x2 x3 x4) = val_main_v32 (F := Ideal) x0 x1 x2 x3 x4 := rfl
theorem colVar_ref : colVar (F := Ideal) (val_main_v28 (F := Ideal) x0 x1 x2 x3 x4) = val_main_v39 (F := Ideal) x0 x1 x2 x3 x4 := rfl

variable (x5 x6 : (⟨S128, .f32⟩ : BufTy).Contents (Elt Ideal))

/-- Normalising, scaling, shifting and clamping is the reference's chain of the same operations. -/
theorem normRelu_ref : normRelu (val_main_v28 (F := Ideal) x0 x1 x2 x3 x4) (val_main_v32 (F := Ideal) x0 x1 x2 x3 x4) (val_main_v39 (F := Ideal) x0 x1 x2 x3 x4)
    (asRow (F := Ideal) x5) (asRow (F := Ideal) x6) = val_main_v53 (F := Ideal) x0 x1 x2 x3 x4 x5 x6 := by
  funext i
  obtain ⟨p, q, rfl⟩ : ∃ (p : Fin 50000) (q : Fin 128), i = ix2 p q := ⟨i 0, i 1, eq_ix2 i⟩
  have e40 : idx_main_v40 (ix2 p q) = ix2 (0 : Fin 1) q := funext fun a => Fin.ext (by match a with | ⟨0, _⟩ => rfl | ⟨1, _⟩ => rfl)
  have e45 : idx_main_v45 (ix2 p q) = ix2 (0 : Fin 1) q := funext fun a => Fin.ext (by match a with | ⟨0, _⟩ => rfl | ⟨1, _⟩ => rfl)
  have e47 : idx_main_v47 (idx_main_v48 (ix2 p q)) = ix1 q := funext fun a => Fin.ext (by match a with | ⟨0, _⟩ => rfl)
  have e50 : idx_main_v50 (idx_main_v51 (ix2 p q)) = ix1 q := funext fun a => Fin.ext (by match a with | ⟨0, _⟩ => rfl)
  rw [val_main_v53_apply, val_main_v52_apply, val_main_v49_apply, val_main_v46_apply, val_main_v41_apply, val_main_v40_apply,
    val_main_v45_apply, val_main_v44_apply, val_main_v43_apply, val_main_v42_apply, val_main_cst_8_apply, val_main_v51_apply, val_main_v50_apply,
    val_main_v48_apply, val_main_v47_apply, val_main_call0_v0_apply, val_main_call0_cst_apply, e40, e45, e47, e50]
  show max ((((val_main_v28 (F := Ideal) x0 x1 x2 x3 x4 (ix2 p q) - val_main_v32 (F := Ideal) x0 x1 x2 x3 x4 (ix2 (0 : Fin 1) q))
        * Ideal.rsqrt (val_main_v39 (F := Ideal) x0 x1 x2 x3 x4 (ix2 (0 : Fin 1) q) + Ideal.ofBits .f32 0x3727C5AC#32))
        * asRow (F := Ideal) x5 (ix2 (0 : Fin 1) q)) + asRow (F := Ideal) x6 (ix2 (0 : Fin 1) q)) (Ideal.ofBits .f32 0x00000000#32)
    = max ((((val_main_v28 (F := Ideal) x0 x1 x2 x3 x4 (ix2 p q) - val_main_v32 (F := Ideal) x0 x1 x2 x3 x4 (ix2 (0 : Fin 1) q))
        * Ideal.rsqrt (val_main_v39 (F := Ideal) x0 x1 x2 x3 x4 (ix2 (0 : Fin 1) q) + Ideal.ofBits .f32 0x3727C5AC#32))
        * x5 (ix1 q)) + x6 (ix1 q)) (Ideal.ofBits .f32 0x00000000#32)
  rw [asRow_apply, asRow_apply]

/-- The hidden features are the reference's. -/
theorem hidden_ref : Cert.KernelIdeal.Whole.hidden x0 x1 x2 x3 x4 x5 x6 = val_main_v53 (F := Ideal) x0 x1 x2 x3 x4 x5 x6 := by
  unfold Cert.KernelIdeal.Whole.hidden layer1
  rw [agg1_ref, lin_ref, colMean_ref, colVar_ref, normRelu_ref]

/-! ## The second layer -/

/-- The neighbour sum of the hidden features is the reference's: the same scatter-add of the same gather. -/
theorem nbrSum_ref2 : nbrSum (F := Ideal) (val_main_v53 (F := Ideal) x0 x1 x2 x3 x4 x5 x6) (edgeSrc x1) (edgeDst x1)
    = val_main_v63 (F := Ideal) x0 x1 x2 x3 x4 x5 x6 := by
  unfold val_main_v63 val_main_v60
  generalize val_main_v53 (F := Ideal) x0 x1 x2 x3 x4 x5 x6 = H
  rfl
theorem degFloor_ref2 : degFloor (F := Ideal) (edgeDst x1) = val_main_v69 (F := Ideal) x1 := rfl
theorem alongRows_ref2 : alongRows (F := Ideal) (val_main_v69 (F := Ideal) x1) = val_main_v71 (F := Ideal) x1 := rfl

/-- The second layer's aggregation of the hidden features is the reference's quotient. -/
theorem agg2_ref : aggMul (F := Ideal) (val_main_v53 (F := Ideal) x0 x1 x2 x3 x4 x5 x6) (edgeSrc x1) (edgeDst x1) (degInv (edgeDst x1))
    = val_main_v72 (F := Ideal) x0 x1 x2 x3 x4 x5 x6 := by
  rw [aggMul_eq, nbrSum_ref2, degFloor_ref2, alongRows_ref2]
  funext i
  rw [val_main_v72_apply, Ideal.hostDivf_def]

variable (x7 : (⟨S128x64, .f32⟩ : BufTy).Contents (Elt Ideal)) (x8 : (⟨S64, .f32⟩ : BufTy).Contents (Elt Ideal)) (x9 : (⟨S128x64, .f32⟩ : BufTy).Contents (Elt Ideal))

/-- A weight matrix padded with 64 more columns reads, in a column below 64, the matrix. -/
theorem padCols_apply (w : (⟨S128x64, .f32⟩ : BufTy).Contents (Elt Ideal)) (k : Fin 128) (q : Fin 64) (q' : Fin 128) (hq : q'.val = q.val) :
    padCols (F := Ideal) w (ix2 k q') = w (ix2 k q) := by
  unfold padCols
  exact pad_apply_of_inside _ _ _ w _ _ _ (ix2 k q') (ix2 k q) (fun a => match a with
    | ⟨0, _⟩ => by show k.val = 0 + k.val * (0 + 1); omega
    | ⟨1, _⟩ => by show q'.val = 0 + q.val * (0 + 1); omega)

/-- A bias vector padded with 64 more entries, as a row, reads, in a column below 64, the vector. -/
theorem padRow_apply (b : (⟨S64, .f32⟩ : BufTy).Contents (Elt Ideal)) (q : Fin 64) (q' : Fin 128) (hq : q'.val = q.val) :
    padRow (F := Ideal) b (ix2 (0 : Fin 1) q') = b (ix1 q) := by
  unfold padRow
  rw [asRow_apply]
  exact pad_apply_of_inside _ _ _ b _ _ _ (ix1 q') (ix1 q) (fun a => match a with
    | ⟨0, _⟩ => by show q'.val = 0 + q.val * (0 + 1); omega)

/-- The first 64 columns of the padded second layer are the reference's second layer. -/
theorem layer2_ref : firstCols (F := Ideal) (layer2 (val_main_v53 (F := Ideal) x0 x1 x2 x3 x4 x5 x6) x1 x7 x8 x9)
    = val_main_v78 (F := Ideal) x0 x1 x2 x3 x4 x5 x6 x7 x8 x9 := by
  funext i
  obtain ⟨p, q, rfl⟩ : ∃ (p : Fin 50000) (q : Fin 64), i = ix2 p q := ⟨i 0, i 1, eq_ix2 i⟩
  have hq : q.val < 128 := by have := q.isLt; omega
  unfold layer2
  rw [agg2_ref]
  refine (slice2_axis1_apply 0 _ _ p q ⟨q.val, hq⟩ (by simp)).trans ?_
  rw [val_main_v78_apply, val_main_v76_apply, val_main_v73_apply, val_main_v77_apply, val_main_v75_apply, val_main_v74_apply]
  have el : ∀ k : Fin 128, lidx_main_v73 (ix2 p q) k = ix2 p k := fun k => funext fun a => Fin.ext (by match a with | ⟨0, _⟩ => rfl | ⟨1, _⟩ => rfl)
  have er : ∀ k : Fin 128, ridx_main_v73 (ix2 p q) k = ix2 k q := fun k => funext fun a => Fin.ext (by match a with | ⟨0, _⟩ => rfl | ⟨1, _⟩ => rfl)
  have el' : ∀ k : Fin 128, lidx_main_v77 (ix2 p q) k = ix2 p k := fun k => funext fun a => Fin.ext (by match a with | ⟨0, _⟩ => rfl | ⟨1, _⟩ => rfl)
  have er' : ∀ k : Fin 128, ridx_main_v77 (ix2 p q) k = ix2 k q := fun k => funext fun a => Fin.ext (by match a with | ⟨0, _⟩ => rfl | ⟨1, _⟩ => rfl)
  have eb : idx_main_v74 (idx_main_v75 (ix2 p q)) = ix1 q := funext fun a => Fin.ext (by match a with | ⟨0, _⟩ => rfl)
  simp only [el, er, el', er', eb]
  unfold lin
  show ((∑ k : Fin 128, val_main_v72 (F := Ideal) x0 x1 x2 x3 x4 x5 x6 (ix2 p k) * padCols (F := Ideal) x7 (ix2 k ⟨q.val, hq⟩))
      + ∑ k : Fin 128, val_main_v53 (F := Ideal) x0 x1 x2 x3 x4 x5 x6 (ix2 p k) * padCols (F := Ideal) x9 (ix2 k ⟨q.val, hq⟩))
      + padRow (F := Ideal) x8 (ix2 (0 : Fin 1) ⟨q.val, hq⟩) = _
  simp only [padCols_apply _ _ q ⟨q.val, hq⟩ rfl, padRow_apply x8 q ⟨q.val, hq⟩ rfl]
  exact add_right_comm _ _ _

/-- The program's result function is the reference's. -/
theorem result_ref : result x0 x1 x2 x3 x4 x5 x6 x7 x8 x9 = val_main_v78 (F := Ideal) x0 x1 x2 x3 x4 x5 x6 x7 x8 x9 := by
  unfold result
  rw [hidden_ref, layer2_ref]

end Cert.Bridge

end
-- ==== Proof.lean ====
/-
  A two-layer mean-aggregating graph convolution with batch normalisation between the layers, against its plain
  reference, as equality of results on the extended reals.

  Per layer both programs gather each edge's source row, add it into the edge's destination row, scale each row by the
  node's in-degree floored at one, and add the aggregated rows through one weight matrix to the rows themselves through
  another, plus a bias. Between the layers both normalise every column by its mean and biased variance over all nodes,
  scale and shift it, and clamp at zero. The program under test does the two linear stages and the normalisation in
  three kernel regions of ten row blocks each, multiplies by the reciprocal of the floored in-degree where the reference
  divides, adds its bias last where the reference adds it between the two products, and runs the second layer on
  parameters padded with zero columns, keeping the first 64 columns. None of these differences changes a result on the
  extended reals: the floored in-degree is at least one, hence not zero; addition is commutative and associative; a
  kept column reads only unpadded entries. No finiteness of the inputs is used.

  The three frames: the two kernel programs' are the generated frame certificates; the reference's is its generated run
  with the result dropped. The idealisation rewrote no operation, so there is nothing to preserve.
-/
import proofs.«158571_j85383949845212_1_alg».proof.Defs
import proofs.«158571_j85383949845212_1_alg».proof.Proof.Gen.Kernel
import proofs.«158571_j85383949845212_1_alg».proof.Proof.Gen.Kernel.Skeleton
import proofs.«158571_j85383949845212_1_alg».proof.Proof.Gen.Kernel.Launch
import proofs.«158571_j85383949845212_1_alg».proof.Proof.Gen.Kernel.Points
import proofs.«158571_j85383949845212_1_alg».proof.Proof.Gen.Kernel.Frame
import proofs.«158571_j85383949845212_1_alg».proof.Proof.Gen.KernelIdeal
import proofs.«158571_j85383949845212_1_alg».proof.Proof.Gen.KernelIdeal.Skeleton
import proofs.«158571_j85383949845212_1_alg».proof.Proof.Gen.KernelIdeal.Launch
import proofs.«158571_j85383949845212_1_alg».proof.Proof.Gen.KernelIdeal.Points
import proofs.«158571_j85383949845212_1_alg».proof.Proof.Gen.KernelIdeal.Frame
import proofs.«158571_j85383949845212_1_alg».proof.Proof.Gen.ReferenceIdeal
import proofs.«158571_j85383949845212_1_alg».proof.Proof.Gen.ReferenceIdeal.Run
import proofs.«158571_j85383949845212_1_alg».proof.Proof.Gen.ReferenceIdeal.Read
import proofs.«158571_j85383949845212_1_alg».proof.Proof.Gen.Pre_finite_inputs
import proofs.«158571_j85383949845212_1_alg».proof.Proof.KValue
import proofs.«158571_j85383949845212_1_alg».proof.Proof.Bridge
import Idealize.ShloMosaic.Adequacy
import Idealize.ShloMosaic.Init

noncomputable section

namespace Cert.Proof

open Idealize.ShloMosaic Idealize.SL.Sem

/-- The word-level program terminates without a fault and leaves its arguments as launched. -/
theorem frame_k : Cert.frame_Kernel := fun m ρ _ => Cert.Kernel.Gen.frame m ρ

/-- So does the idealised program. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealised programs end with the same result: the program's run ends at
    its result function of the arguments, the reference's at its last stage of the arguments, and the two are one function. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v78_eq, a0, a1, a2, a3, a4, a5, a6, a7, a8, a9]
  exact (Cert.Bridge.result_ref _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
